-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S100000x128 : Shape := ⟨2, ![100000, 128]⟩
abbrev S100000x1 : Shape := ⟨2, ![100000, 1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg0 : IVec S16384 32) (main_arg1 : IVec S16384 32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_c_6 : IVec S_ 32 := constantI S_ 32 0#32
  let main_v19 : IVec S16384 32 := broadcastInDim S16384 ![] bcast_S_S16384 main_c_6
  let main_v20 : IVec S16384 1 := cmpi .sge main_arg0 main_v19
  let main_c_7 : IVec S_ 32 := constantI S_ 32 100000#32
  let main_v21 : IVec S16384 32 := broadcastInDim S16384 ![] bcast_S_S16384 main_c_7
  let main_v22 : IVec S16384 1 := cmpi .slt main_arg0 main_v21
  let main_v23 : IVec S16384 1 := andi main_v20 main_v22
  let main_c_8 : IVec S_ 1 := constantI S_ 1 1#1
  let main_v24 : IVec S_ 1 := (fun x v => Host.reduce IntOp.andi x v reducesTo_S16384_S_d0 h_S_) main_v23 main_c_8
  let main_v25 : IVec S_ 1 := andi main_v18 main_v24
  let main_c_9 : IVec S_ 32 := constantI S_ 32 0#32
  let main_v26 : IVec S16384 32 := broadcastInDim S16384 ![] bcast_S_S16384 main_c_9
  let main_v27 : IVec S16384 1 := cmpi .sge main_arg1 main_v26
  let main_c_10 : IVec S_ 32 := constantI S_ 32 100000#32
  let main_v28 : IVec S16384 32 := broadcastInDim S16384 ![] bcast_S_S16384 main_c_10
  let main_v29 : IVec S16384 1 := cmpi .slt main_arg1 main_v28
  let main_v30 : IVec S16384 1 := andi main_v27 main_v29
  let main_c_11 : IVec S_ 1 := constantI S_ 1 1#1
  let main_v31 : IVec S_ 1 := (fun x v => Host.reduce IntOp.andi x v reducesTo_S16384_S_d0 h_S_) main_v30 main_c_11
  let main_v32 : IVec S_ 1 := andi main_v25 main_v31
  main_v32

def fn {F : FTy → Type} [FloatOps F] (main_arg0 : IVec S16384 32) (main_arg1 : IVec S16384 32) (main_arg2 : FVec F S100000x128 .f32) (main_arg3 : FVec F S100000x128 .f32) (main_arg4 : FVec F S100000x1 .f32) (main_arg5 : FVec F S100000x1 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x1 .f32 := Host.absf main_arg4
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S100000x1 .f32 := Host.absf main_arg5
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg0 main_arg1 main_v13 main_v16
-- ==== Kernel.lean ====
abbrev S16384 : Shape := ⟨1, ![16384]⟩
abbrev S100000x128 : Shape := ⟨2, ![100000, 128]⟩
abbrev S100000x1 : Shape := ⟨2, ![100000, 1]⟩
abbrev S100000x1x128 : Shape := ⟨3, ![100000, 1, 128]⟩
abbrev S100000x1x1 : Shape := ⟨3, ![100000, 1, 1]⟩
abbrev S16384x1x1 : Shape := ⟨3, ![16384, 1, 1]⟩
abbrev S1x1x128 : Shape := ⟨3, ![1, 1, 128]⟩
abbrev S1 : Shape := ⟨1, ![1]⟩
abbrev S1x1x1 : Shape := ⟨3, ![1, 1, 1]⟩
abbrev S1x1 : Shape := ⟨2, ![1, 1]⟩
abbrev S16384x1 : Shape := ⟨2, ![16384, 1]⟩

abbrev nBuf : Space → Nat
  | .hbm => 10
  | .vmem => 10
  | .smem => 2
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x1, .f32⟩
  | .hbm, ⟨3, _⟩ => ⟨S100000x1, .f32⟩
  | .hbm, ⟨4, _⟩ => ⟨S100000x1x128, .f32⟩
  | .hbm, ⟨5, _⟩ => ⟨S100000x1x128, .f32⟩
  | .hbm, ⟨6, _⟩ => ⟨S100000x1x1, .f32⟩
  | .hbm, ⟨7, _⟩ => ⟨S100000x1x1, .f32⟩
  | .hbm, ⟨8, _⟩ => ⟨S16384x1x1, .f32⟩
  | .hbm, ⟨9, _⟩ => ⟨S16384x1, .f32⟩
  | .local _ .vmem, ⟨0, _⟩ => ⟨S1x1x128, .f32⟩
  | .local _ .vmem, ⟨1, _⟩ => ⟨S1x1x128, .f32⟩
  | .local _ .vmem, ⟨2, _⟩ => ⟨S1x1x128, .f32⟩
  | .local _ .vmem, ⟨3, _⟩ => ⟨S1x1x128, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .smem, ⟨0, _⟩ => ⟨S16384, .i32⟩
  | .local _ .smem, ⟨1, _⟩ => ⟨S16384, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16384], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S100000x128_S100000x1x128 : S100000x128.ShapeCasts S100000x1x128
  shapeCasts_S100000x1_S100000x1x1 : S100000x1.ShapeCasts S100000x1x1
  numel1_S1 : S1.numel = 1
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  reduces_S1x1x128_S1x1 : S1x1x128.Reduces [2] S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  shapeCasts_S16384x1x1_S16384x1 : S16384x1x1.ShapeCasts S16384x1
  hrank0 : 0 < grid0.rank
  k0_off1_inb : ∀ i : grid0.Coords, ∀ a, (k0_off1 i) a + S1.size a ≤ S16384.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S16384x1x1.size a
  hwx0_4 : ∀ i : grid0.Coords, EltTy.bits .f32 = 32 ∨ (Rect.block (s := S16384x1x1) S1x1x1.size (cc0_transform_4 i) (hinb0_4 i)).WholeWords (EltTy.packing .f32)

variable [Facts₀]

abbrev spec0_0 : Pipeline.WinSpec sig grid0.rank :=
  Pipeline.WinSpec.ofSpec (Memref.whole main_v0) S1x1x128.size reads0_0 false false 2 stage0_0 sem0_0 nbuf0_0 hstage0_0

abbrev spec0_1 : Pipeline.WinSpec sig grid0.rank :=
  Pipeline.WinSpec.ofSpec (Memref.whole main_v1) S1x1x128.size reads0_1 false false 2 stage0_1 sem0_1 nbuf0_1 hstage0_1

abbrev spec0_2 : Pipeline.WinSpec sig grid0.rank :=
  Pipeline.WinSpec.ofSpec (Memref.whole main_v2) S1x1x1.size reads0_2 false false 2 stage0_2 sem0_2 nbuf0_2 hstage0_2

abbrev spec0_3 : Pipeline.WinSpec sig grid0.rank :=
  Pipeline.WinSpec.ofSpec (Memref.whole main_v3) S1x1x1.size reads0_3 false false 2 stage0_3 sem0_3 nbuf0_3 hstage0_3

abbrev spec0_4 : Pipeline.WinSpec sig grid0.rank :=
  Pipeline.WinSpec.ofSpec (Memref.whole main_v4) S1x1x1.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x128.size a ≤ S100000x1x128.size a), EltTy.bits .f32 = 32 ∨ (Rect.block (s := S100000x1x128) S1x1x128.size (cc0_transform_0 k0_off1_inb numel1_S1 pf i) h).WholeWords (EltTy.packing .f32)) ∧
  (∀ i : grid0.Coords, ∃ h : (∀ a, (cc0_transform_1 k0_off1_inb numel1_S1 pf i a + 1) * S1x1x128.size a ≤ S100000x1x128.size a), EltTy.bits .f32 = 32 ∨ (Rect.block (s := S100000x1x128) S1x1x128.size (cc0_transform_1 k0_off1_inb numel1_S1 pf i) h).WholeWords (EltTy.packing .f32)) ∧
  (∀ i : grid0.Coords, ∃ h : (∀ a, (cc0_transform_2 k0_off1_inb numel1_S1 pf i a + 1) * S1x1x1.size a ≤ S100000x1x1.size a), EltTy.bits .f32 = 32 ∨ (Rect.block (s := S100000x1x1) S1x1x1.size (cc0_transform_2 k0_off1_inb numel1_S1 pf i) h).WholeWords (EltTy.packing .f32)) ∧
  (∀ i : grid0.Coords, ∃ h : (∀ a, (cc0_transform_3 k0_off1_inb numel1_S1 pf i a + 1) * S1x1x1.size a ≤ S100000x1x1.size a), EltTy.bits .f32 = 32 ∨ (Rect.block (s := S100000x1x1) S1x1x1.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S16384 : Shape := ⟨1, ![16384]⟩
abbrev S100000x128 : Shape := ⟨2, ![100000, 128]⟩
abbrev S100000x1 : Shape := ⟨2, ![100000, 1]⟩
abbrev S_ : Shape := ⟨0, ![]⟩
abbrev S16384x1 : Shape := ⟨2, ![16384, 1]⟩
abbrev S16384x128 : Shape := ⟨2, ![16384, 128]⟩

abbrev nBuf : Space → Nat
  | .hbm => 48
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S100000x1, .f32⟩
  | .hbm, ⟨5, _⟩ => ⟨S100000x1, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S16384x128, .f32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S16384x1, .i32⟩
  | .hbm, ⟨23, _⟩ => ⟨S16384x128, .f32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S16384x1, .i32⟩
  | .hbm, ⟨32, _⟩ => ⟨S16384x1, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S16384x1, .f32⟩
  | .hbm, ⟨42, _⟩ => ⟨S16384x128, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S16384x1, .f32⟩
  | .hbm, ⟨47, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x128_S16384_d1 : S16384x128.ReducesTo [1] S16384
  h_S_ : 0 < S_.numel
  gather_S100000x128_S16384x1_S16384x128_1_0_n_n_0_1_1128_wf : GatherDims.WF S100000x128 S16384x1 S16384x128 [1] [0] [] [0] [] 1 ![1, 128]
  gather_S100000x1_S16384x1_S16384x1_1_0_n_n_0_1_11_wf : GatherDims.WF S100000x1 S16384x1 S16384x1 [1] [0] [] [0] [] 1 ![1, 1]

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def gather_S100000x1_S16384x1_S16384x1_1_0_n_n_0_1_11 : GatherDims S100000x1 S16384x1 S16384x1 where
  offsetDims := [1]
  collapsedSliceDims := [0]
  operandBatchingDims := []
  startIndicesBatchingDims := []
  startIndexMap := [0]
  indexVectorDim := 1
  sliceSizes := ![1, 1]
  wf := gather_S100000x1_S16384x1_S16384x1_1_0_n_n_0_1_11_wf

class Facts : Prop extends Facts₀ where

variable [Facts]
-- ==== Proof.Rows.lean ====
/-
  Words that name a row of a table of 100000 rows.

  An index is a 32-bit word. The precondition says of every index `w` that `0 ≤ w < 100000` read signed. Such a word
  has the same value read unsigned, below 100000: the kernel's index maps read the word unsigned, the reference's
  gather reads it signed and clamps it into the table; on a row's word both name the same row, `rowOf w`.
-/
import Idealize.ShloMosaic.Lib.Affine
import Idealize.ShloMosaic.Lib.ValueIdx

namespace Cert.Embed

open Idealize.ShloMosaic

/-- The word `w`, read signed, lies in `[0, 100000)`: it names a row of a table of 100000 rows. -/
def IsRow (w : BitVec 32) : Prop := 0 ≤ w.toInt ∧ w.toInt < 100000

/-- A row's word reads the same signed and unsigned. -/
theorem IsRow.toInt_eq {w : BitVec 32} (h : IsRow w) : w.toInt = (w.toNat : Int) := by
  have h0 := h.1
  have h32 := w.isLt
  rw [BitVec.toInt_eq_toNat_cond] at h0 ⊢
  split
  · rfl
  · rename_i hc; rw [if_neg hc] at h0; omega

/-- Read unsigned it is below 100000. -/
theorem IsRow.toNat_lt {w : BitVec 32} (h : IsRow w) : w.toNat < 100000 := by
  have := h.2
  rw [h.toInt_eq] at this
  omega

/-- The signed value as a natural number is the unsigned value. -/
theorem IsRow.toInt_toNat {w : BitVec 32} (h : IsRow w) : w.toInt.toNat = w.toNat := by
  rw [h.toInt_eq]; exact Int.toNat_natCast _

/-- The bit `(w ≥ 0) ∧ (w < 100000)`, both compared signed, is set only for a row's word. -/
theorem isRow_of_bit (w : BitVec 32)
    (h : IntOp.andi (IntOp.cmpi .sge w 0#32) (IntOp.cmpi .slt w 100000#32) = 1#1) : IsRow w := by
  obtain ⟨h0, h1⟩ := IntOp.andi_eq_one.1 h
  rw [IntOp.cmpi_sge] at h0
  rw [IntOp.cmpi_slt] at h1
  have z : (0#32 : BitVec 32).toInt = 0 := by decide
  have v : (100000#32 : BitVec 32).toInt = 100000 := by decide
  rw [z] at h0
  rw [v] at h1
  exact ⟨h0, h1⟩

/-- The row a word names: its unsigned value, cut at the last row (a row's word is not cut). -/
def rowOf (w : BitVec 32) : Fin 100000 := ⟨min w.toNat 99999, by omega⟩

theorem rowOf_val {w : BitVec 32} (h : IsRow w) : (rowOf w).val = w.toNat := by
  have := h.toNat_lt
  show min w.toNat 99999 = w.toNat
  omega

end Cert.Embed
-- ==== Proof.IndexRange.lean ====
/-
  What the precondition says of the two index vectors.

  The precondition is a conjunction of six `jnp.all`s; the last two say, of every entry `w` of `i1` and of `i2`,
  that `0 ≤ w` and `w < 100000` as signed 32-bit integers: every index names a row of its table.
-/
import proofs.«405020_j8297876816110_3_alg».proof.Proof.Gen.Pre_finite_inputs
import proofs.«405020_j8297876816110_3_alg».proof.Proof.Rows
import Idealize.ShloMosaic.Lib.ReduceAll

namespace Cert.Embed

open Idealize.ShloMosaic Idealize.ShloMosaic.ValueIdx
open Cert.Pre_finite_inputs

instance : Subsingleton S_.Idx := ⟨fun _ _ => funext fun d => d.elim0⟩

variable [Facts] {F : FTy → Type} [FloatOps F]

/-- Under the precondition every entry of `i1` and every entry of `i2` names a row. -/
theorem rows_of_pre (i1 i2 : IVec S16384 32) (W1 W2 : FVec F S100000x128 .f32) (b1 b2 : FVec F S100000x1 .f32)
    (h : fn (F := F) i1 i2 W1 W2 b1 b2 = fun _ => 1#1) :
    (∀ r : S16384.Idx, IsRow (i1 r)) ∧ (∀ r : S16384.Idx, IsRow (i2 r)) := by
  have e := congrFun h ix0
  unfold fn fn_part1 at e
  dsimp only at e
  change IntOp.andi _ _ = 1#1 at e
  obtain ⟨e12, e2⟩ := IntOp.andi_eq_one.1 e
  change IntOp.andi _ _ = 1#1 at e12
  obtain ⟨-, e1⟩ := IntOp.andi_eq_one.1 e12
  exact ⟨fun r => isRow_of_bit _ (Host.reduce_andi_all _ _ _ _ ix0 e1 r),
    fun r => isRow_of_bit _ (Host.reduce_andi_all _ _ _ _ ix0 e2 r)⟩

end Cert.Embed
-- ==== Proof.KernelOk.lean ====
/-
  The kernel's tables are in range (the program as printed, read at the word level).

  The pallas_call's four input windows take their leading block index from the prefetched tables `i1` and `i2`, read
  unsigned: window 0 and 2 fetch block `i1[t]` of `W1` and of `b1` at grid point `t`, windows 1 and 3 block `i2[t]` of
  `W2` and of `b2`. The blocks are single rows, so a block lies inside its table exactly when the word is below 100000,
  which the precondition gives. (f32 transfers are word-exact.)
-/
import proofs.«405020_j8297876816110_3_alg».proof.Defs
import proofs.«405020_j8297876816110_3_alg».proof.Proof.Gen.Kernel.Frame
import proofs.«405020_j8297876816110_3_alg».proof.Proof.IndexRange

noncomputable section

namespace Cert.Kernel.Hand

open Cert.Kernel Cert.Kernel.Gen Cert.Embed
open Idealize.ShloMosaic Idealize.ShloMosaic.TcCoe Idealize.SL.Sem

variable {F : FTy → Type} [FloatOps F]

/-- Whatever the tables hold, a table-indexed window's block index is (the table's word at the grid point, 0, 0). -/
theorem ix_tbl0 (pf : pre0.Contents (Elt F)) (i : grid0.Coords) :
    ∃ x : S16384.Idx, cc0_transform_0 k0_off1_inb numel1_S1 pf i = ![(pf 0 x).toNat, 0, 0]
      ∧ cc0_transform_2 k0_off1_inb numel1_S1 pf i = ![(pf 0 x).toNat, 0, 0] := ⟨_, rfl, rfl⟩
theorem ix_tbl1 (pf : pre0.Contents (Elt F)) (i : grid0.Coords) :
    ∃ x : S16384.Idx, cc0_transform_1 k0_off1_inb numel1_S1 pf i = ![(pf 1 x).toNat, 0, 0]
      ∧ cc0_transform_3 k0_off1_inb numel1_S1 pf i = ![(pf 1 x).toNat, 0, 0] := ⟨_, rfl, rfl⟩

/-- Tables all of whose words are below 100000 satisfy the pipeline's side condition. -/
theorem ok_of_lt (pf : pre0.Contents (Elt F)) (h0 : ∀ x : S16384.Idx, (pf 0 x).toNat < 100000)
    (h1 : ∀ x : S16384.Idx, (pf 1 x).toNat < 100000) : ok0 (F := F) pf := by
  refine ⟨fun i => ?_, fun i => ?_, fun i => ?_, fun i => ?_⟩
  · obtain ⟨x, e, -⟩ := ix_tbl0 pf i
    have := h0 x
    refine ⟨fun a => ?_, Or.inl rfl⟩
    rw [e]
    fin_cases a <;> simp [S1x1x128, S100000x1x128] <;> omega
  · obtain ⟨x, e, -⟩ := ix_tbl1 pf i
    have := h1 x
    refine ⟨fun a => ?_, Or.inl rfl⟩
    rw [e]
    fin_cases a <;> simp [S1x1x128, S100000x1x128] <;> omega
  · obtain ⟨x, -, e⟩ := ix_tbl0 pf i
    have := h0 x
    refine ⟨fun a => ?_, Or.inl rfl⟩
    rw [e]
    fin_cases a <;> simp [S1x1x1, S100000x1x1] <;> omega
  · obtain ⟨x, -, e⟩ := ix_tbl1 pf i
    have := h1 x
    refine ⟨fun a => ?_, Or.inl rfl⟩
    rw [e]
    fin_cases a <;> simp [S1x1x1, S100000x1x1] <;> omega

variable (m : (ℓ : Loc nD τ sig) → Buf (Elt F) ℓ)

/-- The tables as the region finds them are the two index arguments (no host operation before it writes them). -/
theorem tbl0_eq : tbl m 0 = m (((0 : Dev nD) : Thread nD τ).loc main_arg0) := V_main_arg0 m 0
theorem tbl1_eq : tbl m 1 = m (((0 : Dev nD) : Thread nD τ).loc main_arg1) := V_main_arg1 m 0

/-- Both index arguments hold rows' words, on every device. -/
def Rows : Prop :=
  ∀ c : Dev nD, (∀ r : S16384.Idx, IsRow (m ((c : Thread nD τ).loc main_arg0) r))
    ∧ (∀ r : S16384.Idx, IsRow (m ((c : Thread nD τ).loc main_arg1) r))

/-- Then the pipeline's side condition holds. -/
theorem ok_of_rows (h : Rows m) : Ok m :=
  ok_of_lt (tbl m) (fun x => by rw [tbl0_eq]; exact ((h 0).1 x).toNat_lt) (fun x => by rw [tbl1_eq]; exact ((h 0).2 x).toNat_lt)

end Cert.Kernel.Hand

namespace Cert.Proof

open Idealize.ShloMosaic Idealize.ShloMosaic.TcCoe Idealize.SL.Sem

/-- The precondition of the kernel says its index arguments hold rows' words. -/
theorem rows_Kernel [hPre : Cert.Pre_finite_inputs.Facts]
    (m : (ℓ : Loc Cert.Kernel.nD Cert.Kernel.τ Cert.Kernel.sig) → Buf (Elt Bits) ℓ)
    (h : Cert.Pre_Kernel m) : Cert.Kernel.Hand.Rows m :=
  fun c => Cert.Embed.rows_of_pre _ _ _ _ _ _ (h c)

end Cert.Proof

end
-- ==== Proof.IdealOk.lean ====
/-
  The idealized kernel's tables are in range.

  The pallas_call's four input windows take their leading block index from the prefetched tables `i1` and `i2`, read
  unsigned: window 0 and 2 fetch block `i1[t]` of `W1` and of `b1` at grid point `t`, windows 1 and 3 block `i2[t]` of
  `W2` and of `b2`. The blocks are single rows, so a block lies inside its table exactly when the word is below 100000,
  which the precondition gives. (f32 transfers are word-exact.)
-/
import proofs.«405020_j8297876816110_3_alg».proof.Defs
import proofs.«405020_j8297876816110_3_alg».proof.Proof.Gen.KernelIdeal.Frame
import proofs.«405020_j8297876816110_3_alg».proof.Proof.IndexRange

noncomputable section

namespace Cert.KernelIdeal.Hand

open Cert.KernelIdeal Cert.KernelIdeal.Gen Cert.Embed
open Idealize.ShloMosaic Idealize.ShloMosaic.TcCoe Idealize.SL.Sem

variable {F : FTy → Type} [FloatOps F]

/-- Whatever the tables hold, a table-indexed window's block index is (the table's word at the grid point, 0, 0). -/
theorem ix_tbl0 (pf : pre0.Contents (Elt F)) (i : grid0.Coords) :
    ∃ x : S16384.Idx, cc0_transform_0 k0_off1_inb numel1_S1 pf i = ![(pf 0 x).toNat, 0, 0]
      ∧ cc0_transform_2 k0_off1_inb numel1_S1 pf i = ![(pf 0 x).toNat, 0, 0] := ⟨_, rfl, rfl⟩
theorem ix_tbl1 (pf : pre0.Contents (Elt F)) (i : grid0.Coords) :
    ∃ x : S16384.Idx, cc0_transform_1 k0_off1_inb numel1_S1 pf i = ![(pf 1 x).toNat, 0, 0]
      ∧ cc0_transform_3 k0_off1_inb numel1_S1 pf i = ![(pf 1 x).toNat, 0, 0] := ⟨_, rfl, rfl⟩

/-- Tables all of whose words are below 100000 satisfy the pipeline's side condition. -/
theorem ok_of_lt (pf : pre0.Contents (Elt F)) (h0 : ∀ x : S16384.Idx, (pf 0 x).toNat < 100000)
    (h1 : ∀ x : S16384.Idx, (pf 1 x).toNat < 100000) : ok0 (F := F) pf := by
  refine ⟨fun i => ?_, fun i => ?_, fun i => ?_, fun i => ?_⟩
  · obtain ⟨x, e, -⟩ := ix_tbl0 pf i
    have := h0 x
    refine ⟨fun a => ?_, Or.inl rfl⟩
    rw [e]
    fin_cases a <;> simp [S1x1x128, S100000x1x128] <;> omega
  · obtain ⟨x, e, -⟩ := ix_tbl1 pf i
    have := h1 x
    refine ⟨fun a => ?_, Or.inl rfl⟩
    rw [e]
    fin_cases a <;> simp [S1x1x128, S100000x1x128] <;> omega
  · obtain ⟨x, -, e⟩ := ix_tbl0 pf i
    have := h0 x
    refine ⟨fun a => ?_, Or.inl rfl⟩
    rw [e]
    fin_cases a <;> simp [S1x1x1, S100000x1x1] <;> omega
  · obtain ⟨x, -, e⟩ := ix_tbl1 pf i
    have := h1 x
    refine ⟨fun a => ?_, Or.inl rfl⟩
    rw [e]
    fin_cases a <;> simp [S1x1x1, S100000x1x1] <;> omega

variable (m : (ℓ : Loc nD τ sig) → Buf (Elt F) ℓ)

/-- The tables as the region finds them are the two index arguments (no host operation before it writes them). -/
theorem tbl0_eq : tbl m 0 = m (((0 : Dev nD) : Thread nD τ).loc main_arg0) := V_main_arg0 m 0
theorem tbl1_eq : tbl m 1 = m (((0 : Dev nD) : Thread nD τ).loc main_arg1) := V_main_arg1 m 0

/-- Both index arguments hold rows' words, on every device. -/
def Rows : Prop :=
  ∀ c : Dev nD, (∀ r : S16384.Idx, IsRow (m ((c : Thread nD τ).loc main_arg0) r))
    ∧ (∀ r : S16384.Idx, IsRow (m ((c : Thread nD τ).loc main_arg1) r))

/-- Then the pipeline's side condition holds. -/
theorem ok_of_rows (h : Rows m) : Ok m :=
  ok_of_lt (tbl m) (fun x => by rw [tbl0_eq]; exact ((h 0).1 x).toNat_lt) (fun x => by rw [tbl1_eq]; exact ((h 0).2 x).toNat_lt)

end Cert.KernelIdeal.Hand

namespace Cert.Proof

open Idealize.ShloMosaic Idealize.ShloMosaic.TcCoe Idealize.SL.Sem

/-- The precondition of the idealized kernel says its index arguments hold rows' words. -/
theorem rows_KernelIdeal [hPre : Cert.Pre_finite_inputs.Facts]
    (m : (ℓ : Loc Cert.KernelIdeal.nD Cert.KernelIdeal.τ Cert.KernelIdeal.sig) → Buf (Elt Ideal) ℓ)
    (h : Cert.Pre_KernelIdeal m) : Cert.KernelIdeal.Hand.Rows m :=
  fun c => Cert.Embed.rows_of_pre _ _ _ _ _ _ (h c)

end Cert.Proof

end
-- ==== Proof.IdealBody.lean ====
/-
  What the kernel body leaves, at one grid point.

  The body loads a row of `W1`, a row of `W2` and the two bias words, multiplies the rows lane by lane, sums the 128
  products, adds the first bias and then the second, and stores the one resulting number.
-/
import proofs.«405020_j8297876816110_3_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx

theorem hz : (![0, 0, 0] : Fin 3 → Nat) = fun _ => 0 := funext fun a => by fin_cases a <;> rfl

section
variable {F : FTy → Type} [FloatOps F]

/-- The output's staging buffer after the body holds the body's one stored value, as a function of the four loads. -/
theorem out_eq (c : Dev nD) (i : grid0.Coords) (arg3 : Memref sig .tc .vmem S1x1x128 .f32) (harg3 : arg3.IsWhole) (arg4 : Memref sig .tc .vmem S1x1x128 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole)
    (x0 : Vec F S1x1x128 .f32) (x1 : Vec F S1x1x128 .f32) (x2 : Vec F S1x1x1 .f32) (x3 : Vec F S1x1x1 .f32) (xt0 : TbBuf0 (F := F) c tbM0_0) (xt1 : TbBuf0 (F := F) c tbM0_1) :
    out0_A_4 c i arg3 harg3 arg4 harg4 arg5 harg5 arg6 harg6 arg7 harg7 x0 x1 x2 x3 xt0 xt1 = k0_pay1 x0 x1 x2 x3 := by
  unfold out0_A_4
  rw [View.read_writes_eq_canon _ _ _ (cover0_A_4 c i arg3 harg3 arg4 harg4 arg5 harg5 arg6 harg6 arg7 harg7 x0 x1 x2 x3 xt0 xt1)]
  unfold kernelRun0_A
  dsimp only
  try sl_unfold_words
  rw [View.canon_unit_zero hz]
  simp only [View.readAt_eq_ld, harg3.read_unread, harg4.read_unread, harg5.read_unread, harg6.read_unread,
    View.ld_unit_zero (S := S1x1x128) hz, View.ld_unit_zero (S := S1x1x1) hz]

end

/-- A [1,1,1] block has one index. -/
theorem idx111 (y : S1x1x1.Idx) : y = ix3 0 0 0 := funext fun a => Fin.ext (by
  match a with
  | ⟨0, _⟩ => have h : (y 0).val < 1 := (y 0).isLt; show (y 0).val = 0; omega
  | ⟨1, _⟩ => have h : (y 1).val < 1 := (y 1).isLt; show (y 1).val = 0; omega
  | ⟨2, _⟩ => have h : (y 2).val < 1 := (y 2).isLt; show (y 2).val = 0; omega)

/-- The stored value on the extended reals: the inner product of the two loaded rows, plus the two loaded words. -/
theorem pay_apply (x0 x1 : FVec Ideal S1x1x128 .f32) (x2 x3 : FVec Ideal S1x1x1 .f32) (y : S1x1x1.Idx) :
    k0_pay1 (F := Ideal) x0 x1 x2 x3 y
      = (∑ k : Fin 128, x0 (ix3 0 0 k) * x1 (ix3 0 0 k)) + x2 (ix3 0 0 0) + x3 (ix3 0 0 0) := by
  rw [idx111 y]
  unfold k0_pay1
  dsimp only
  rw [shapeCast_self, shapeCast_self, shapeCast_self, shapeCast_self]
  show (shapeCast S1x1x1 _ _ (ix3 0 0 0) + x2 (ix3 0 0 0)) + x3 (ix3 0 0 0) = _
  congr 1
  congr 1
  refine (shapeCast_apply _ _ (ix3 0 0 0) (ix2 0 0) rfl).trans ?_
  refine (Ideal.multiReduction_add_single _ 0x00000000#32 reduces_S1x1x128_S1x1 (.inl rfl) rfl (ix2 0 0)).trans ?_
  show ∑ k : Fin 128, _ = _
  refine Finset.sum_congr rfl fun k _ => ?_
  have e : reduces_S1x1x128_S1x1.lift (ix2 0 0) k = ix3 0 0 k := funext fun a => Fin.ext (by
    match a with
    | ⟨0, _⟩ => rfl
    | ⟨1, _⟩ => rfl
    | ⟨2, _⟩ => rfl)
  rw [e]
  rfl

end Cert.KernelIdeal.Hand

end
-- ==== Proof.IdealBlocks.lean ====
/-
  The blocks the pipeline hands the body, read at an index.

  At grid point `t` window 0 holds block `(i1[t], 0, 0)` of `W1` viewed as [100000, 1, 128] — row `i1[t]` of `W1` —,
  window 1 row `i2[t]` of `W2`, windows 2 and 3 the words `b1[i1[t]]` and `b2[i2[t]]`; the output window's block at
  `t` is the one element `(t, 0, 0)` of the [16384, 1, 1] result. The tables' words are read unsigned. The 3-d views are
  host reshapes of the arguments, which keep the row-major order.
-/
import proofs.«405020_j8297876816110_3_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]

/-- The position of a table that the index maps read at grid coordinates `i`. -/
def tix (i : grid0.Coords) : S16384.Idx :=
  (Rect.unit (s := S16384) (k0_off1 i) S1.size (k0_off1_inb i)).emb (Shape.Idx.first (numel1_S1.symm ▸ Nat.one_pos))

/-- It is the grid coordinate. -/
theorem tix_val (i : grid0.Coords) : (tix i 0).val = (i 0).val := by
  have hi : (i 0).val < 16384 := (i 0).isLt
  show (BitVec.ofNat 32 (i 0).val).toNat + 1 * (Shape.Idx.first (s := S1) _ (0 : Fin 1)).val = _
  have h0 : (Shape.Idx.first (s := S1) (numel1_S1.symm ▸ Nat.one_pos) (0 : Fin 1)).val = 0 := by
    have := (Shape.Idx.first (s := S1) (numel1_S1.symm ▸ Nat.one_pos) (0 : Fin 1)).isLt
    have e : S1.size (0 : Fin 1) = 1 := by decide
    omega
  rw [h0, BitVec.toNat_ofNat]
  omega

/-- On the one-axis grid the coordinate of point `t` is `t`. -/
theorem coords_val (t : Fin grid0.N) : (grid0.coords t 0).val = t.val := by
  have hN : grid0.N = 16384 := N_0
  have hs : grid0.stride 0 = 1 := by decide
  have ht := t.isLt
  show t.val / grid0.stride 0 % 16384 = t.val
  rw [hs]
  omega

theorem lead128 (y : S1x1x128.Idx) : (y 0).val = 0 ∧ (y 1).val = 0 := by
  have h0 : (y 0).val < 1 := (y 0).isLt
  have h1 : (y 1).val < 1 := (y 1).isLt
  omega

theorem lead1 (y : S1x1x1.Idx) : (y 0).val = 0 ∧ (y 1).val = 0 ∧ (y 2).val = 0 := by
  have h0 : (y 0).val < 1 := (y 0).isLt
  have h1 : (y 1).val < 1 := (y 1).isLt
  have h2 : (y 2).val < 1 := (y 2).isLt
  omega

variable (a : (pcfg0 (F := F)).Adm) (m : (ℓ : Loc nD τ sig) → Buf (Elt F) ℓ)

/-! ## The input blocks, at any admissible contents of the tables -/

theorem read_blk0 (t : Fin (cfg0 a).N) (c : Dev nD) (y : S1x1x128.Idx) (q : S100000x1x128.Idx)
    (h0 : (q 0).val = (a.1 0 (tix (grid0.coords t))).toNat) (h1 : (q 1).val = 0) (h2 : (q 2).val = (y 2).val) :
    (((cfg0 a).win 0).blk t).view.read (Elt F) (V m c (Pipeline.arrRef spec0 0)) y = V m c main_v0 q := by
  refine (View.read_apply _ _).trans ?_
  show V m c main_v0 _ = V m c main_v0 q
  refine congrArg (V m c main_v0) (funext fun b => Fin.ext ?_)
  match b with
  | ⟨0, _⟩ =>
    show (a.1 0 (tix (grid0.coords t))).toNat * 1 + 1 * (y 0).val = (q 0).val
    rw [h0, (lead128 y).1]; omega
  | ⟨1, _⟩ =>
    show 0 * 1 + 1 * (y 1).val = (q 1).val
    rw [h1, (lead128 y).2]
  | ⟨2, _⟩ =>
    show 0 * 128 + 1 * (y 2).val = (q 2).val
    rw [h2]; omega

theorem read_blk1 (t : Fin (cfg0 a).N) (c : Dev nD) (y : S1x1x128.Idx) (q : S100000x1x128.Idx)
    (h0 : (q 0).val = (a.1 1 (tix (grid0.coords t))).toNat) (h1 : (q 1).val = 0) (h2 : (q 2).val = (y 2).val) :
    (((cfg0 a).win 1).blk t).view.read (Elt F) (V m c (Pipeline.arrRef spec0 1)) y = V m c main_v1 q := by
  refine (View.read_apply _ _).trans ?_
  show V m c main_v1 _ = V m c main_v1 q
  refine congrArg (V m c main_v1) (funext fun b => Fin.ext ?_)
  match b with
  | ⟨0, _⟩ =>
    show (a.1 1 (tix (grid0.coords t))).toNat * 1 + 1 * (y 0).val = (q 0).val
    rw [h0, (lead128 y).1]; omega
  | ⟨1, _⟩ =>
    show 0 * 1 + 1 * (y 1).val = (q 1).val
    rw [h1, (lead128 y).2]
  | ⟨2, _⟩ =>
    show 0 * 128 + 1 * (y 2).val = (q 2).val
    rw [h2]; omega

theorem read_blk2 (t : Fin (cfg0 a).N) (c : Dev nD) (y : S1x1x1.Idx) (q : S100000x1x1.Idx)
    (h0 : (q 0).val = (a.1 0 (tix (grid0.coords t))).toNat) (h1 : (q 1).val = 0) (h2 : (q 2).val = 0) :
    (((cfg0 a).win 2).blk t).view.read (Elt F) (V m c (Pipeline.arrRef spec0 2)) y = V m c main_v2 q := by
  refine (View.read_apply _ _).trans ?_
  show V m c main_v2 _ = V m c main_v2 q
  refine congrArg (V m c main_v2) (funext fun b => Fin.ext ?_)
  match b with
  | ⟨0, _⟩ =>
    show (a.1 0 (tix (grid0.coords t))).toNat * 1 + 1 * (y 0).val = (q 0).val
    rw [h0, (lead1 y).1]; omega
  | ⟨1, _⟩ =>
    show 0 * 1 + 1 * (y 1).val = (q 1).val
    rw [h1, (lead1 y).2.1]
  | ⟨2, _⟩ =>
    show 0 * 1 + 1 * (y 2).val = (q 2).val
    rw [h2, (lead1 y).2.2]

theorem read_blk3 (t : Fin (cfg0 a).N) (c : Dev nD) (y : S1x1x1.Idx) (q : S100000x1x1.Idx)
    (h0 : (q 0).val = (a.1 1 (tix (grid0.coords t))).toNat) (h1 : (q 1).val = 0) (h2 : (q 2).val = 0) :
    (((cfg0 a).win 3).blk t).view.read (Elt F) (V m c (Pipeline.arrRef spec0 3)) y = V m c main_v3 q := by
  refine (View.read_apply _ _).trans ?_
  show V m c main_v3 _ = V m c main_v3 q
  refine congrArg (V m c main_v3) (funext fun b => Fin.ext ?_)
  match b with
  | ⟨0, _⟩ =>
    show (a.1 1 (tix (grid0.coords t))).toNat * 1 + 1 * (y 0).val = (q 0).val
    rw [h0, (lead1 y).1]; omega
  | ⟨1, _⟩ =>
    show 0 * 1 + 1 * (y 1).val = (q 1).val
    rw [h1, (lead1 y).2.1]
  | ⟨2, _⟩ =>
    show 0 * 1 + 1 * (y 2).val = (q 2).val
    rw [h2, (lead1 y).2.2]

/-! ## The output block -/

/-- Where the output window's block at point `t` sits in the result: at `(t, 0, 0)`. -/
theorem emb_blk4 (t : Fin (cfg0 a).N) (y : S1x1x1.Idx) (b : Fin 3) :
    ((((cfg0 a).win 4).blk t).view.emb y b).val = if b = 0 then t.val else 0 := by
  have ht := coords_val t
  have hc : (grid0.coords t 0).val < 16384 := (grid0.coords t 0).isLt
  match b with
  | ⟨0, _⟩ =>
    show (BitVec.ofNat 32 (grid0.coords t 0).val).toNat * 1 + 1 * (y 0).val = t.val
    rw [(lead1 y).1, BitVec.toNat_ofNat, ht] at *
    omega
  | ⟨1, _⟩ =>
    show 0 * 1 + 1 * (y 1).val = 0
    rw [(lead1 y).2.1]
  | ⟨2, _⟩ =>
    show 0 * 1 + 1 * (y 2).val = 0
    rw [(lead1 y).2.2]

/-! ## The host reshapes before the region -/

theorem V_v0 (c : Dev nD) :
    V m c main_v0 = shapeCast S100000x1x128 (m ((c : Thread nD τ).loc main_arg2)) shapeCasts_S100000x128_S100000x1x128 := by
  show StableHlo.after hostOps0 (fun b => m (c, b)) (Proc.devRef .tc main_v0) = _
  after_results
  rfl

theorem V_v1 (c : Dev nD) :
    V m c main_v1 = shapeCast S100000x1x128 (m ((c : Thread nD τ).loc main_arg3)) shapeCasts_S100000x128_S100000x1x128 := by
  show StableHlo.after hostOps0 (fun b => m (c, b)) (Proc.devRef .tc main_v1) = _
  after_results
  rfl

theorem V_v2 (c : Dev nD) :
    V m c main_v2 = shapeCast S100000x1x1 (m ((c : Thread nD τ).loc main_arg4)) shapeCasts_S100000x1_S100000x1x1 := by
  show StableHlo.after hostOps0 (fun b => m (c, b)) (Proc.devRef .tc main_v2) = _
  after_results
  rfl

theorem V_v3 (c : Dev nD) :
    V m c main_v3 = shapeCast S100000x1x1 (m ((c : Thread nD τ).loc main_arg5)) shapeCasts_S100000x1_S100000x1x1 := by
  show StableHlo.after hostOps0 (fun b => m (c, b)) (Proc.devRef .tc main_v3) = _
  after_results
  rfl

/-- The [100000, 1, 128] view of a table at `(p, 0, k)` is the table at `(p, k)`. -/
theorem wide_apply {α : Type} (W : S100000x128.Idx → α) (p : Fin 100000) (k : Fin 128) :
    shapeCast S100000x1x128 W shapeCasts_S100000x128_S100000x1x128 (ix3 p 0 k) = W (ix2 p k) :=
  shapeCast_apply _ _ (ix3 p 0 k) (ix2 p k) (by
    rw [Shape.rowMajor_val_two, Shape.rowMajor_val_three]
    show p.val * 128 + k.val = (p.val * 1 + 0) * 128 + k.val
    omega)

/-- The [100000, 1, 1] view of a bias column at `(p, 0, 0)` is the column at `(p, 0)`. -/
theorem narrow_apply {α : Type} (b : S100000x1.Idx → α) (p : Fin 100000) :
    shapeCast S100000x1x1 b shapeCasts_S100000x1_S100000x1x1 (ix3 p 0 0) = b (ix2 p 0) :=
  shapeCast_apply _ _ (ix3 p 0 0) (ix2 p 0) (by
    rw [Shape.rowMajor_val_two, Shape.rowMajor_val_three]
    show p.val * 1 + 0 = (p.val * 1 + 0) * 1 + 0
    omega)

end Cert.KernelIdeal.Hand

end
-- ==== Proof.Spec.lean ====
/-
  The function both programs compute.

  Row `r` of the result is the inner product of row `i1[r]` of `W1` with row `i2[r]` of `W2`, plus the bias
  `b1[i1[r]]`, plus the bias `b2[i2[r]]` — the two additions in this order, on the extended reals.
-/
import proofs.«405020_j8297876816110_3_alg».proof.Proof.Rows
import Idealize.ShloMosaic.PureOps.Ideal

noncomputable section

namespace Cert.Embed

open Idealize.ShloMosaic Idealize.ShloMosaic.ValueIdx

/-- The score of batch row `r`: `(∑ₖ W1[i1[r], k] · W2[i2[r], k] + b1[i1[r]]) + b2[i2[r]]`. -/
def score (i1 i2 : IVec ⟨1, ![16384]⟩ 32) (W1 W2 : (⟨2, ![100000, 128]⟩ : Shape).Idx → EReal)
    (b1 b2 : (⟨2, ![100000, 1]⟩ : Shape).Idx → EReal) (r : Fin 16384) : EReal :=
  (∑ k : Fin 128, W1 (ix2 (rowOf (i1 (ix1 r))) k) * W2 (ix2 (rowOf (i2 (ix1 r))) k))
    + b1 (ix2 (rowOf (i1 (ix1 r))) 0) + b2 (ix2 (rowOf (i2 (ix1 r))) 0)

end Cert.Embed

end
-- ==== Proof.IdealValue.lean ====
/-
  The idealized kernel's result: row `r` of the [16384, 1] array it returns is `score r`.

  At grid point `t` the body is handed row `i1[t]` of `W1`, row `i2[t]` of `W2` and the words `b1[i1[t]]`, `b2[i2[t]]`
  (the tables' words name rows, by the precondition), and leaves `score t` in the output's one-element block, which the
  pipeline writes back to element `(t, 0, 0)` of the [16384, 1, 1] result. The 16384 blocks tile that array; the host
  reshape after the region reads it as [16384, 1].
-/
import proofs.«405020_j8297876816110_3_alg».proof.Defs
import proofs.«405020_j8297876816110_3_alg».proof.Proof.Gen.KernelIdeal.Frame
import proofs.«405020_j8297876816110_3_alg».proof.Proof.IdealOk
import proofs.«405020_j8297876816110_3_alg».proof.Proof.IdealBody
import proofs.«405020_j8297876816110_3_alg».proof.Proof.IdealBlocks
import proofs.«405020_j8297876816110_3_alg».proof.Proof.Spec
import Idealize.ShloMosaic.Lib.Pipeline.Value
import Idealize.ShloMosaic.Lib.StableHlo.Run

set_option maxRecDepth 16384

noncomputable section

namespace Cert.KernelIdeal.Hand

open Cert.KernelIdeal Cert.KernelIdeal.Gen Cert.Embed
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-! ## The four input blocks at a point, as vectors of their literal shapes -/

abbrev xb0 (hO : Ok m) (c : Dev nD) (t : Fin (cfgM m hO).N) : FVec Ideal S1x1x128 .f32 := iblk m hO c 0 t
abbrev xb1 (hO : Ok m) (c : Dev nD) (t : Fin (cfgM m hO).N) : FVec Ideal S1x1x128 .f32 := iblk m hO c 1 t
abbrev xb2 (hO : Ok m) (c : Dev nD) (t : Fin (cfgM m hO).N) : FVec Ideal S1x1x1 .f32 := iblk m hO c 2 t
abbrev xb3 (hO : Ok m) (c : Dev nD) (t : Fin (cfgM m hO).N) : FVec Ideal S1x1x1 .f32 := iblk m hO c 3 t

/-- The argument arrays, at their literal shapes. -/
abbrev aI1 (c : Dev nD) : IVec S16384 32 := m ((c : Thread nD τ).loc main_arg0)
abbrev aI2 (c : Dev nD) : IVec S16384 32 := m ((c : Thread nD τ).loc main_arg1)
abbrev aW1 (c : Dev nD) : FVec Ideal S100000x128 .f32 := m ((c : Thread nD τ).loc main_arg2)
abbrev aW2 (c : Dev nD) : FVec Ideal S100000x128 .f32 := m ((c : Thread nD τ).loc main_arg3)
abbrev aB1 (c : Dev nD) : FVec Ideal S100000x1 .f32 := m ((c : Thread nD τ).loc main_arg4)
abbrev aB2 (c : Dev nD) : FVec Ideal S100000x1 .f32 := m ((c : Thread nD τ).loc main_arg5)

/-- Lane `k` of window 0's block at `t` is `W1` at (the row table 0 names at `t`, `k`). -/
theorem xb0_apply (hO : Ok m) (c : Dev nD) (t : Fin (cfgM m hO).N) (k : Fin 128) (p : Fin 100000)
    (hp : p.val = (tbl m 0 (tix (grid0.coords t))).toNat) : xb0 m hO c t (ix3 0 0 k) = aW1 m c (ix2 p k) := by
  show iblk m hO c 0 t (ix3 0 0 k) = _
  unfold iblk
  refine (read_blk0 (adm m hO) m t c (ix3 0 0 k) (ix3 p 0 k) hp rfl rfl).trans ?_
  rw [V_v0]
  exact wide_apply _ p k

theorem xb1_apply (hO : Ok m) (c : Dev nD) (t : Fin (cfgM m hO).N) (k : Fin 128) (p : Fin 100000)
    (hp : p.val = (tbl m 1 (tix (grid0.coords t))).toNat) : xb1 m hO c t (ix3 0 0 k) = aW2 m c (ix2 p k) := by
  show iblk m hO c 1 t (ix3 0 0 k) = _
  unfold iblk
  refine (read_blk1 (adm m hO) m t c (ix3 0 0 k) (ix3 p 0 k) hp rfl rfl).trans ?_
  rw [V_v1]
  exact wide_apply _ p k

theorem xb2_apply (hO : Ok m) (c : Dev nD) (t : Fin (cfgM m hO).N) (p : Fin 100000)
    (hp : p.val = (tbl m 0 (tix (grid0.coords t))).toNat) : xb2 m hO c t (ix3 0 0 0) = aB1 m c (ix2 p 0) := by
  show iblk m hO c 2 t (ix3 0 0 0) = _
  unfold iblk
  refine (read_blk2 (adm m hO) m t c (ix3 0 0 0) (ix3 p 0 0) hp rfl rfl).trans ?_
  rw [V_v2]
  exact narrow_apply _ p

theorem xb3_apply (hO : Ok m) (c : Dev nD) (t : Fin (cfgM m hO).N) (p : Fin 100000)
    (hp : p.val = (tbl m 1 (tix (grid0.coords t))).toNat) : xb3 m hO c t (ix3 0 0 0) = aB2 m c (ix2 p 0) := by
  show iblk m hO c 3 t (ix3 0 0 0) = _
  unfold iblk
  refine (read_blk3 (adm m hO) m t c (ix3 0 0 0) (ix3 p 0 0) hp rfl rfl).trans ?_
  rw [V_v3]
  exact narrow_apply _ p

/-! ## What the body leaves at a point -/

/-- The output's staging buffer after the body at `t`: the stored value of the four blocks. -/
theorem outs_eq (hO : Ok m) (c : Dev nD) (t : Fin (cfgM m hO).N) :
    outsAt0 m hO c t = k0_pay1 (F := Ideal) (xb0 m hO c t) (xb1 m hO c t) (xb2 m hO c t) (xb3 m hO c t) :=
  out_eq c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (iblk m hO c 0 t) (iblk m hO c 1 t) (iblk m hO c 2 t)
    (iblk m hO c 3 t) (tbl m 0) (tbl m 1)

/-- It is the score of row `t`. -/
theorem outs_apply (h : Rows m) (hO : Ok m) (c : Dev nD) (t : Fin (cfgM m hO).N) (r : Fin 16384) (hr : r.val = t.val)
    (y : S1x1x1.Idx) :
    outsAt0 m hO c t y = score (aI1 m c) (aI2 m c) (aW1 m c) (aW2 m c) (aB1 m c) (aB2 m c) r := by
  obtain rfl : c = 0 := Subsingleton.elim _ _
  have hw1 : IsRow (aI1 m 0 (ix1 r)) := (h 0).1 (ix1 r)
  have hw2 : IsRow (aI2 m 0 (ix1 r)) := (h 0).2 (ix1 r)
  have ht : tix (grid0.coords t) = ix1 r := funext fun b => Fin.ext (by
    match b with
    | ⟨0, _⟩ => show (tix (grid0.coords t) 0).val = r.val; rw [tix_val, coords_val, hr])
  have hp1 : (rowOf (aI1 m 0 (ix1 r))).val = (tbl m 0 (tix (grid0.coords t))).toNat := by
    rw [ht, tbl0_eq]; exact rowOf_val hw1
  have hp2 : (rowOf (aI2 m 0 (ix1 r))).val = (tbl m 1 (tix (grid0.coords t))).toNat := by
    rw [ht, tbl1_eq]; exact rowOf_val hw2
  refine (congrFun (outs_eq m hO 0 t) y).trans ?_
  refine (pay_apply (xb0 m hO 0 t) (xb1 m hO 0 t) (xb2 m hO 0 t) (xb3 m hO 0 t) y).trans ?_
  unfold score
  have hs : ∑ k : Fin 128, xb0 m hO 0 t (ix3 0 0 k) * xb1 m hO 0 t (ix3 0 0 k)
      = ∑ k : Fin 128, aW1 m 0 (ix2 (rowOf (aI1 m 0 (ix1 r))) k) * aW2 m 0 (ix2 (rowOf (aI2 m 0 (ix1 r))) k) :=
    Finset.sum_congr rfl fun k _ => by
      rw [xb0_apply m hO 0 t k (rowOf (aI1 m 0 (ix1 r))) hp1, xb1_apply m hO 0 t k (rowOf (aI2 m 0 (ix1 r))) hp2]
  rw [hs, xb2_apply m hO 0 t (rowOf (aI1 m 0 (ix1 r))) hp1, xb3_apply m hO 0 t (rowOf (aI2 m 0 (ix1 r))) hp2]

/-! ## The result array -/

/-- What the [16384, 1, 1] result ends holding. -/
abbrev result3 (c : Dev nD) : Buf (Elt Ideal) ((c : Thread nD τ).loc main_v4) :=
  fun i => score (aI1 m c) (aI2 m c) (aW1 m c) (aW2 m c) (aB1 m c) (aB2 m c) (i 0)

/-- Point `t` writes back block `t` of it. -/
theorem flushed_eq (h : Rows m) (hO : Ok m) (c : Dev nD) (t : Fin (cfgM m hO).N) :
    (dats m hO 0 c).flushed 4 t = (((cfgM m hO).win 4).blk t).view.read (Elt Ideal) (result3 m c) := by
  show ((cfgM m hO).win 4).cut (grid0.coords t) ((dats m hO 0 c).after 4 t) = _
  rw [after0_4]
  funext y
  have hN : (cfgM m hO).N = 16384 := N_0
  have ht := t.isLt
  refine (outs_apply m h hO c t ⟨t.val, by omega⟩ rfl _).trans ?_
  refine Eq.trans ?_ (View.read_apply _ _).symm
  show _ = result3 m c _
  refine congrArg (score (aI1 m c) (aI2 m c) (aW1 m c) (aW2 m c) (aB1 m c) (aB2 m c)) (Fin.ext ?_)
  exact ((emb_blk4 (adm m hO) t y 0).trans (if_pos rfl)).symm

set_option backward.isDefEq.respectTransparency.types false in
/-- The 16384 one-element blocks tile the result. -/
theorem cover (hO : Ok m) (i : S16384x1x1.Idx) :
    ∃ t : Fin (cfgM m hO).N, ((cfgM m hO).win 4).flush t = true ∧ i ∈ (((cfgM m hO).win 4).blk t).view.set := by
  have hN : (cfgM m hO).N = 16384 := N_0
  have h0 : (i 0).val < 16384 := (i 0).isLt
  have h1 : (i 1).val < 1 := (i 1).isLt
  have h2 : (i 2).val < 1 := (i 2).isLt
  refine ⟨⟨(i 0).val, lt_of_lt_of_eq h0 hN.symm⟩, flush0_4 (adm m hO) _, ?_⟩
  have hc : (grid0.coords (⟨(i 0).val, lt_of_lt_of_eq h0 hN.symm⟩ : Fin grid0.N) 0).val = (i 0).val :=
    coords_val _
  show i ∈ ((View.whole main_v4).slice (((cfgM m hO).win 4).rect ⟨(i 0).val, lt_of_lt_of_eq h0 hN.symm⟩)).set
  rw [View.set_slice_whole]
  refine Rect.mem_set_unit.mpr ?_
  intro b
  match b with
  | ⟨0, _⟩ =>
    show (BitVec.ofNat 32 (grid0.coords (⟨(i 0).val, lt_of_lt_of_eq h0 hN.symm⟩ : Fin grid0.N) 0).val).toNat * 1 ≤ (i 0).val
      ∧ (i 0).val < (BitVec.ofNat 32 (grid0.coords (⟨(i 0).val, lt_of_lt_of_eq h0 hN.symm⟩ : Fin grid0.N) 0).val).toNat * 1 + 1
    rw [hc, BitVec.toNat_ofNat]
    omega
  | ⟨1, _⟩ =>
    show 0 * 1 ≤ (i 1).val ∧ (i 1).val < 0 * 1 + 1
    omega
  | ⟨2, _⟩ =>
    show 0 * 1 ≤ (i 2).val ∧ (i 2).val < 0 * 1 + 1
    omega

/-- So the [16384, 1, 1] result ends holding the scores. -/
theorem final (h : Rows m) (hO : Ok m) (c : Dev nD) : (dats m hO 0 c).arrAt 4 (cfgM m hO).N = result3 m c :=
  (dats m hO 0 c).arrAt_eq_of_cover 4 (result3 m c) (fun t _ => flushed_eq m h hO c t) (cover m hO)

end Cert.KernelIdeal.Hand

end
-- ==== Proof.IdealRun.lean ====
/-
  The idealized kernel's run, with its result named.

  After the region the host reshapes the [16384, 1, 1] result to [16384, 1]; both read row `r` at their `r`-th element.
  The argument arrays end as they began.
-/
import proofs.«405020_j8297876816110_3_alg».proof.Proof.IdealValue

set_option maxRecDepth 16384

noncomputable section

namespace Cert.KernelIdeal.Hand

open Cert.KernelIdeal Cert.KernelIdeal.Gen Cert.Embed
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-- What the program returns: the scores as a [16384, 1] column. -/
abbrev result (c : Dev nD) : Buf (Elt Ideal) ((c : Thread nD τ).loc main_v5) :=
  fun j => score (aI1 m c) (aI2 m c) (aW1 m c) (aW2 m c) (aB1 m c) (aB2 m c) (j 0)

/-- The [16384, 1] view of a [16384, 1, 1] array at `(r, 0)` is the array at `(r, 0, 0)`. -/
theorem col_apply {α : Type} (X : S16384x1x1.Idx → α) (j : S16384x1.Idx) :
    shapeCast S16384x1 X shapeCasts_S16384x1x1_S16384x1 j = X (ix3 (j 0) 0 0) := by
  have h1 : (j 1).val < 1 := (j 1).isLt
  exact shapeCast_apply X _ j (ix3 (j 0) 0 0) (by
    rw [Shape.rowMajor_val_three, Shape.rowMajor_val_two]
    show ((j 0).val * 1 + 0) * 1 + 0 = (j 0).val * 1 + (j 1).val
    omega)

/-- The host line after the region leaves the scores in the returned buffer. -/
theorem tail_eq (h : Rows m) (hO : Ok m) (c : Dev nD) :
    Pipeline.afterTail pcfgs (fun _ => adm m hO) (dats m hO) 0 (V0 m) [hostOps1] c main_v5 = result m c := by
  have hA : Pipeline.withArrays (Pipeline.pin pcfgs (fun _ => adm m hO) 0).spec c (V0 m c)
      (fun w => (dats m hO 0 c).arrAt w (Pipeline.pin pcfgs (fun _ => adm m hO) 0).N) (Proc.devRef .tc main_v4)
        = result3 m c :=
    (Pipeline.withArrays_arr spec0 winFacts0.arr_inj c (V0 m c) _ 4).trans (final m h hO c)
  unfold Pipeline.afterTail
  show StableHlo.after hostOps1 _ (Proc.devRef .tc main_v5) = _
  after_results
  funext j
  show shapeCast S16384x1 (Pipeline.withArrays (Pipeline.pin pcfgs (fun _ => adm m hO) 0).spec c (V0 m c)
      (fun w => (dats m hO 0 c).arrAt w (Pipeline.pin pcfgs (fun _ => adm m hO) 0).N) (Proc.devRef .tc main_v4))
        shapeCasts_S16384x1x1_S16384x1 j = _
  rw [hA]
  exact col_apply (result3 m c) j

/-- THE RUN: every weakly fair execution ends with the scores in the returned buffer and the arguments unchanged. -/
theorem run (h : Rows m) :
    θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ hq c =>
    ⟨((hq c).2 main_v5 (by decide : main_v5 ∈ Pipeline.restRefs sig spec0)).trans (tail_eq m h (ok_of_rows m h) c),
      ((hq c).2 main_arg0 (by decide : main_arg0 ∈ Pipeline.restRefs sig spec0)).trans (W_main_arg0 m (ok_of_rows m h) (dats m (ok_of_rows m h)) c),
      ((hq c).2 main_arg1 (by decide : main_arg1 ∈ Pipeline.restRefs sig spec0)).trans (W_main_arg1 m (ok_of_rows m h) (dats m (ok_of_rows m h)) c),
      ((hq c).2 main_arg2 (by decide : main_arg2 ∈ Pipeline.restRefs sig spec0)).trans (W_main_arg2 m (ok_of_rows m h) (dats m (ok_of_rows m h)) c),
      ((hq c).2 main_arg3 (by decide : main_arg3 ∈ Pipeline.restRefs sig spec0)).trans (W_main_arg3 m (ok_of_rows m h) (dats m (ok_of_rows m h)) c),
      ((hq c).2 main_arg4 (by decide : main_arg4 ∈ Pipeline.restRefs sig spec0)).trans (W_main_arg4 m (ok_of_rows m h) (dats m (ok_of_rows m h)) c),
      ((hq c).2 main_arg5 (by decide : main_arg5 ∈ Pipeline.restRefs sig spec0)).trans (W_main_arg5 m (ok_of_rows m h) (dats m (ok_of_rows m h)) c)⟩)
    (run_main m ρ (ok_of_rows m h))

end Cert.KernelIdeal.Hand

end
-- ==== Proof.LibClampIx.lean ====
/-! # A gather's start index: a 32-bit word read signed and clamped into an axis

StableHLO's gather reads each component of a start index as a signed integer and clamps it into
`[0, size − slice size]`. On an axis of `U` positions whose slice has one position that is
`min (max w 0) (U − 1)`: `Int.toNat` sends the negative words to `0`, `min` cuts at `U − 1`. This file names
that position as an element of `Fin U`, so that two programs gathering along the same axis are seen to read
the same place, and records two facts about words that already lie on the axis. -/

namespace Cert.Hand

/-- The position on an axis of `U` places that the word `w`, read signed, is clamped to. -/
def clampIx (U : Nat) (hU : 0 < U) (w : BitVec 32) : Fin U := ⟨min w.toInt.toNat (U - 1), by omega⟩

theorem clampIx_val (U : Nat) (hU : 0 < U) (w : BitVec 32) :
    (clampIx U hU w).val = min w.toInt.toNat (U - 1) := rfl

/-- A word that lies on the axis is its own clamped position. -/
theorem clampIx_val_of_mem (U : Nat) (hU : 0 < U) (w : BitVec 32) (h0 : 0 ≤ w.toInt) (hlt : w.toInt < (U : Int)) :
    (clampIx U hU w).val = w.toInt.toNat := by
  rw [clampIx_val]
  have : w.toInt.toNat < U := by omega
  omega

/-- As an integer, too. -/
theorem clampIx_val_int_of_mem (U : Nat) (hU : 0 < U) (w : BitVec 32) (h0 : 0 ≤ w.toInt) (hlt : w.toInt < (U : Int)) :
    ((clampIx U hU w).val : Int) = w.toInt := by
  rw [clampIx_val_of_mem U hU w h0 hlt]; omega

/-- A word that is not negative as a signed integer is not signed-below zero. -/
theorem slt_zero_of_nonneg (w : BitVec 32) (h0 : 0 ≤ w.toInt) : BitVec.slt w 0#32 = false := by
  simp only [BitVec.slt, BitVec.toInt_zero]
  exact decide_eq_false (by omega)

/-- The normalisation of a possibly negative position — add the axis' length to a word below zero — leaves a
    word that is not negative alone. -/
theorem wrap_of_nonneg (w u : BitVec 32) (h0 : 0 ≤ w.toInt) : (if BitVec.slt w 0#32 then w + u else w) = w := by
  rw [slt_zero_of_nonneg w h0]; rfl

end Cert.Hand
-- ==== Proof.LibGatherAt.lean ====
import proofs.«405020_j8297876816110_3_alg».proof.Proof.LibClampIx
import Idealize.ShloMosaic.Lib.ValueIdx

/-! # `stablehlo.gather` read at an index, for four arrangements of axes

`Host.gather d x idx j = x (d.operandIdx j idx)`: on each operand axis the operand index is the clamped start
(the start index's component for that axis, read signed, when the start-index map names the axis) plus the
batching coordinate plus the offset coordinate (the result's own coordinate on an offset axis). Here are the
four arrangements in which every axis is either an offset axis read whole or a collapsed axis named by the
start-index map, there is no batching axis, and the start indices are `[N, 1]` or `[N, 2]` with the index
vector on the last axis. Each lemma is stated over variable extents, for dimension numbers given as a record of
those extents, and says which operand element result element `(l, n)` or `(n, l)` is, with the clamped
positions written as `clampIx`. -/

namespace Cert.Hand

open Idealize.ShloMosaic Idealize.ShloMosaic.ValueIdx

section LUV
variable {α : Type} {L U V N : Nat}

/-- Dimension numbers of a gather that reads, for each of `N` index pairs `(u, v)`, the whole first axis of an
    operand `[L, U, V]` at `(·, u, v)`: the result is `[L, N]`. -/
abbrev dimsLUV (L U V N : Nat)
    (wf : GatherDims.WF ⟨3, ![L, U, V]⟩ ⟨2, ![N, 2]⟩ ⟨2, ![L, N]⟩ [0] [1, 2] [] [1, 2] [] 1 ![L, 1, 1]) :
    GatherDims ⟨3, ![L, U, V]⟩ ⟨2, ![N, 2]⟩ ⟨2, ![L, N]⟩ where
  offsetDims := [0]
  collapsedSliceDims := [1, 2]
  operandBatchingDims := []
  startIndicesBatchingDims := []
  startIndexMap := [1, 2]
  indexVectorDim := 1
  sliceSizes := ![L, 1, 1]
  wf := wf

/-- Result element `(l, n)` is the operand at `(l, u, v)`, where `u` and `v` are the two words of index pair
    `n`, each read signed and clamped into its axis. -/
theorem gather_LUV_apply (hU : 0 < U) (hV : 0 < V)
    (wf : GatherDims.WF ⟨3, ![L, U, V]⟩ ⟨2, ![N, 2]⟩ ⟨2, ![L, N]⟩ [0] [1, 2] [] [1, 2] [] 1 ![L, 1, 1])
    (x : (⟨3, ![L, U, V]⟩ : Shape).Idx → α) (idx : IVec ⟨2, ![N, 2]⟩ 32) (l : Fin L) (n : Fin N) :
    Host.gather (dimsLUV L U V N wf) x idx (ix2 l n)
      = x (ix3 l (clampIx U hU (idx (ix2 n 0))) (clampIx V hV (idx (ix2 n 1)))) := by
  unfold Host.gather
  congr 1
  funext a
  refine Fin.ext ?_
  match a with
  | ⟨0, h0⟩ =>
    -- the first axis is the offset axis: no start, the result's own first coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨0, h0⟩ : Fin 3) ∉ (dimsLUV L U V N wf).startIndexMap from
      (by decide : (0 : Fin 3) ∉ ([1, 2] : List (Fin 3))))]
    unfold GatherDims.offCoord
    rw [dif_pos (show (⟨0, h0⟩ : Fin 3) ∈ (dimsLUV L U V N wf).sKept from
      (by decide : (0 : Fin 3) ∈ ([0] : List (Fin 3))))]
    rw [Nat.add_zero, Nat.zero_add]
    rfl
  | ⟨1, h1⟩ =>
    -- the second axis is collapsed and is the start index's first component
    show GatherDims.start _ _ _ _ + GatherDims.batchCoord _ _ _ + GatherDims.offCoord _ _ _ = _
    have hm : (⟨1, h1⟩ : Fin 3) ∈ (dimsLUV L U V N wf).startIndexMap :=
      (by decide : (1 : Fin 3) ∈ ([1, 2] : List (Fin 3)))
    rw [GatherDims.batchCoord_eq_zero _ _ _ List.not_mem_nil,
      GatherDims.offCoord_eq_zero _ _ _ (show (⟨1, h1⟩ : Fin 3) ∉ (dimsLUV L U V N wf).sKept from
        (by decide : (1 : Fin 3) ∉ ([0] : List (Fin 3))))]
    unfold GatherDims.start
    rw [dif_pos hm]
    have hsi : (dimsLUV L U V N wf).siIdx (ix2 l n)
        ⟨List.idxOf (⟨1, h1⟩ : Fin 3) (dimsLUV L U V N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨2, h2⟩ =>
    -- the third axis is collapsed and is the start index's second component
    show GatherDims.start _ _ _ _ + GatherDims.batchCoord _ _ _ + GatherDims.offCoord _ _ _ = _
    have hm : (⟨2, h2⟩ : Fin 3) ∈ (dimsLUV L U V N wf).startIndexMap :=
      (by decide : (2 : Fin 3) ∈ ([1, 2] : List (Fin 3)))
    rw [GatherDims.batchCoord_eq_zero _ _ _ List.not_mem_nil,
      GatherDims.offCoord_eq_zero _ _ _ (show (⟨2, h2⟩ : Fin 3) ∉ (dimsLUV L U V N wf).sKept from
        (by decide : (2 : Fin 3) ∉ ([0] : List (Fin 3))))]
    unfold GatherDims.start
    rw [dif_pos hm]
    have hsi : (dimsLUV L U V N wf).siIdx (ix2 l n)
        ⟨List.idxOf (⟨2, h2⟩ : Fin 3) (dimsLUV L U V N wf).startIndexMap, List.idxOf_lt_length_iff.2 hm⟩
          = ix2 n 1 := by
      funext b; refine Fin.ext ?_
      match b with
      | ⟨0, _⟩ => rfl
      | ⟨1, _⟩ => rfl
    rw [hsi]
    rfl

end LUV

section LU
variable {α : Type} {L U N : Nat}

/-- Dimension numbers of a gather that reads, for each of `N` indices `u`, the whole first axis of an operand
    `[L, U]` at `(·, u)`: the result is `[L, N]`. -/
abbrev dimsLU (L U N : Nat)
    (wf : GatherDims.WF ⟨2, ![L, U]⟩ ⟨2, ![N, 1]⟩ ⟨2, ![L, N]⟩ [0] [1] [] [1] [] 1 ![L, 1]) :
    GatherDims ⟨2, ![L, U]⟩ ⟨2, ![N, 1]⟩ ⟨2, ![L, N]⟩ where
  offsetDims := [0]
  collapsedSliceDims := [1]
  operandBatchingDims := []
  startIndicesBatchingDims := []
  startIndexMap := [1]
  indexVectorDim := 1
  sliceSizes := ![L, 1]
  wf := wf

/-- Result element `(l, n)` is the operand at `(l, u)`, where `u` is index word `n` read signed and clamped
    into the second axis. -/
theorem gather_LU_apply (hU : 0 < U)
    (wf : GatherDims.WF ⟨2, ![L, U]⟩ ⟨2, ![N, 1]⟩ ⟨2, ![L, N]⟩ [0] [1] [] [1] [] 1 ![L, 1])
    (x : (⟨2, ![L, U]⟩ : Shape).Idx → α) (idx : IVec ⟨2, ![N, 1]⟩ 32) (l : Fin L) (n : Fin N) :
    Host.gather (dimsLU L U N wf) x idx (ix2 l n) = x (ix2 l (clampIx U hU (idx (ix2 n 0)))) := by
  unfold Host.gather
  congr 1
  funext a
  refine Fin.ext ?_
  match a with
  | ⟨0, h0⟩ =>
    -- the first axis is the offset axis: no start, the result's own first coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨0, h0⟩ : Fin 2) ∉ (dimsLU L U N wf).startIndexMap from
      (by decide : (0 : Fin 2) ∉ ([1] : List (Fin 2))))]
    unfold GatherDims.offCoord
    rw [dif_pos (show (⟨0, h0⟩ : Fin 2) ∈ (dimsLU L U N wf).sKept from
      (by decide : (0 : Fin 2) ∈ ([0] : List (Fin 2))))]
    rw [Nat.add_zero, Nat.zero_add]
    rfl
  | ⟨1, h1⟩ =>
    -- the second axis is collapsed and is the start index's one component
    show GatherDims.start _ _ _ _ + GatherDims.batchCoord _ _ _ + GatherDims.offCoord _ _ _ = _
    have hm : (⟨1, h1⟩ : Fin 2) ∈ (dimsLU L U N wf).startIndexMap :=
      (by decide : (1 : Fin 2) ∈ ([1] : List (Fin 2)))
    rw [GatherDims.batchCoord_eq_zero _ _ _ List.not_mem_nil,
      GatherDims.offCoord_eq_zero _ _ _ (show (⟨1, h1⟩ : Fin 2) ∉ (dimsLU L U N wf).sKept from
        (by decide : (1 : Fin 2) ∉ ([0] : List (Fin 2))))]
    unfold GatherDims.start
    rw [dif_pos hm]
    have hsi : (dimsLU L U N wf).siIdx (ix2 l n)
        ⟨List.idxOf (⟨1, h1⟩ : Fin 2) (dimsLU L U N wf).startIndexMap, List.idxOf_lt_length_iff.2 hm⟩
          = ix2 n 0 := by
      funext b; refine Fin.ext ?_
      match b with
      | ⟨0, _⟩ => rfl
      | ⟨1, _⟩ => rfl
    rw [hsi]
    rfl

end LU

section UL
variable {α : Type} {U L N : Nat}

/-- Dimension numbers of a gather that reads, for each of `N` indices `u`, row `u` of an operand `[U, L]`:
    the result is `[N, L]`. -/
abbrev dimsUL (U L N : Nat)
    (wf : GatherDims.WF ⟨2, ![U, L]⟩ ⟨2, ![N, 1]⟩ ⟨2, ![N, L]⟩ [1] [0] [] [0] [] 1 ![1, L]) :
    GatherDims ⟨2, ![U, L]⟩ ⟨2, ![N, 1]⟩ ⟨2, ![N, L]⟩ where
  offsetDims := [1]
  collapsedSliceDims := [0]
  operandBatchingDims := []
  startIndicesBatchingDims := []
  startIndexMap := [0]
  indexVectorDim := 1
  sliceSizes := ![1, L]
  wf := wf

/-- Result element `(n, l)` is the operand at `(u, l)`, where `u` is index word `n` read signed and clamped
    into the first axis. -/
theorem gather_UL_apply (hU : 0 < U)
    (wf : GatherDims.WF ⟨2, ![U, L]⟩ ⟨2, ![N, 1]⟩ ⟨2, ![N, L]⟩ [1] [0] [] [0] [] 1 ![1, L])
    (x : (⟨2, ![U, L]⟩ : Shape).Idx → α) (idx : IVec ⟨2, ![N, 1]⟩ 32) (n : Fin N) (l : Fin L) :
    Host.gather (dimsUL U L N wf) x idx (ix2 n l) = x (ix2 (clampIx U hU (idx (ix2 n 0))) l) := by
  unfold Host.gather
  congr 1
  funext a
  refine Fin.ext ?_
  match a with
  | ⟨0, h0⟩ =>
    -- the first axis is collapsed and is the start index's one component
    show GatherDims.start _ _ _ _ + GatherDims.batchCoord _ _ _ + GatherDims.offCoord _ _ _ = _
    have hm : (⟨0, h0⟩ : Fin 2) ∈ (dimsUL U L N wf).startIndexMap :=
      (by decide : (0 : Fin 2) ∈ ([0] : List (Fin 2)))
    rw [GatherDims.batchCoord_eq_zero _ _ _ List.not_mem_nil,
      GatherDims.offCoord_eq_zero _ _ _ (show (⟨0, h0⟩ : Fin 2) ∉ (dimsUL U L N wf).sKept from
        (by decide : (0 : Fin 2) ∉ ([1] : List (Fin 2))))]
    unfold GatherDims.start
    rw [dif_pos hm]
    have hsi : (dimsUL U L N wf).siIdx (ix2 n l)
        ⟨List.idxOf (⟨0, h0⟩ : Fin 2) (dimsUL U L N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨1, h1⟩ =>
    -- the second axis is the offset axis: no start, the result's own second coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨1, h1⟩ : Fin 2) ∉ (dimsUL U L N wf).startIndexMap from
      (by decide : (1 : Fin 2) ∉ ([0] : List (Fin 2))))]
    unfold GatherDims.offCoord
    rw [dif_pos (show (⟨1, h1⟩ : Fin 2) ∈ (dimsUL U L N wf).sKept from
      (by decide : (1 : Fin 2) ∈ ([1] : List (Fin 2))))]
    rw [Nat.add_zero, Nat.zero_add]
    rfl

end UL

section UVL
variable {α : Type} {U V L N : Nat}

/-- Dimension numbers of a gather that reads, for each of `N` index pairs `(u, v)`, the whole last axis of an
    operand `[U, V, L]` at `(u, v, ·)`: the result is `[N, L]`. -/
abbrev dimsUVL (U V L N : Nat)
    (wf : GatherDims.WF ⟨3, ![U, V, L]⟩ ⟨2, ![N, 2]⟩ ⟨2, ![N, L]⟩ [1] [0, 1] [] [0, 1] [] 1 ![1, 1, L]) :
    GatherDims ⟨3, ![U, V, L]⟩ ⟨2, ![N, 2]⟩ ⟨2, ![N, L]⟩ where
  offsetDims := [1]
  collapsedSliceDims := [0, 1]
  operandBatchingDims := []
  startIndicesBatchingDims := []
  startIndexMap := [0, 1]
  indexVectorDim := 1
  sliceSizes := ![1, 1, L]
  wf := wf

/-- Result element `(n, l)` is the operand at `(u, v, l)`, where `u` and `v` are the two words of index pair
    `n`, each read signed and clamped into its axis. -/
theorem gather_UVL_apply (hU : 0 < U) (hV : 0 < V)
    (wf : GatherDims.WF ⟨3, ![U, V, L]⟩ ⟨2, ![N, 2]⟩ ⟨2, ![N, L]⟩ [1] [0, 1] [] [0, 1] [] 1 ![1, 1, L])
    (x : (⟨3, ![U, V, L]⟩ : Shape).Idx → α) (idx : IVec ⟨2, ![N, 2]⟩ 32) (n : Fin N) (l : Fin L) :
    Host.gather (dimsUVL U V L N wf) x idx (ix2 n l)
      = x (ix3 (clampIx U hU (idx (ix2 n 0))) (clampIx V hV (idx (ix2 n 1))) l) := by
  unfold Host.gather
  congr 1
  funext a
  refine Fin.ext ?_
  match a with
  | ⟨0, h0⟩ =>
    -- the first axis is collapsed and is the start index's first component
    show GatherDims.start _ _ _ _ + GatherDims.batchCoord _ _ _ + GatherDims.offCoord _ _ _ = _
    have hm : (⟨0, h0⟩ : Fin 3) ∈ (dimsUVL U V L N wf).startIndexMap :=
      (by decide : (0 : Fin 3) ∈ ([0, 1] : List (Fin 3)))
    rw [GatherDims.batchCoord_eq_zero _ _ _ List.not_mem_nil,
      GatherDims.offCoord_eq_zero _ _ _ (show (⟨0, h0⟩ : Fin 3) ∉ (dimsUVL U V L N wf).sKept from
        (by decide : (0 : Fin 3) ∉ ([2] : List (Fin 3))))]
    unfold GatherDims.start
    rw [dif_pos hm]
    have hsi : (dimsUVL U V L N wf).siIdx (ix2 n l)
        ⟨List.idxOf (⟨0, h0⟩ : Fin 3) (dimsUVL U V L N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨1, h1⟩ =>
    -- the second axis is collapsed and is the start index's second component
    show GatherDims.start _ _ _ _ + GatherDims.batchCoord _ _ _ + GatherDims.offCoord _ _ _ = _
    have hm : (⟨1, h1⟩ : Fin 3) ∈ (dimsUVL U V L N wf).startIndexMap :=
      (by decide : (1 : Fin 3) ∈ ([0, 1] : List (Fin 3)))
    rw [GatherDims.batchCoord_eq_zero _ _ _ List.not_mem_nil,
      GatherDims.offCoord_eq_zero _ _ _ (show (⟨1, h1⟩ : Fin 3) ∉ (dimsUVL U V L N wf).sKept from
        (by decide : (1 : Fin 3) ∉ ([2] : List (Fin 3))))]
    unfold GatherDims.start
    rw [dif_pos hm]
    have hsi : (dimsUVL U V L N wf).siIdx (ix2 n l)
        ⟨List.idxOf (⟨1, h1⟩ : Fin 3) (dimsUVL U V L N wf).startIndexMap, List.idxOf_lt_length_iff.2 hm⟩
          = ix2 n 1 := by
      funext b; refine Fin.ext ?_
      match b with
      | ⟨0, _⟩ => rfl
      | ⟨1, _⟩ => rfl
    rw [hsi]
    rfl
  | ⟨2, h2⟩ =>
    -- the third axis is the offset axis: no start, the result's own second coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨2, h2⟩ : Fin 3) ∉ (dimsUVL U V L N wf).startIndexMap from
      (by decide : (2 : Fin 3) ∉ ([0, 1] : List (Fin 3))))]
    unfold GatherDims.offCoord
    rw [dif_pos (show (⟨2, h2⟩ : Fin 3) ∈ (dimsUVL U V L N wf).sKept from
      (by decide : (2 : Fin 3) ∈ ([2] : List (Fin 3))))]
    rw [Nat.add_zero, Nat.zero_add]
    rfl

end UVL

end Cert.Hand
-- ==== Proof.RefSide.lean ====
/-
  The reference's result, row by row.

  jnp's `W[i]` first adds the table's length to a negative index, then gathers with the start position read signed and
  clamped into the table. On a word that names a row neither step changes it, so each of the four gathers reads row
  `rowOf i[r]` of its table. The reduction over the 128 lanes starts from the constant 0; what remains is the score.
-/
import proofs.«405020_j8297876816110_3_alg».proof.Proof.Gen.ReferenceIdeal.Read
import proofs.«405020_j8297876816110_3_alg».proof.Proof.Spec
import proofs.«405020_j8297876816110_3_alg».proof.Proof.LibGatherAt

noncomputable section

namespace Cert.Embed.Ref

open Cert.ReferenceIdeal Cert.ReferenceIdeal.Gen Cert.ReferenceIdeal.Read Cert.Hand
open Idealize.ShloMosaic Idealize.ShloMosaic.ValueIdx

/-- A row's word is not below zero, so the wrap of a negative index leaves it. -/
theorem wrap_row (w u : BitVec 32) (h : IsRow w) :
    Scalar.select (IntOp.cmpi .slt w 0#32) (IntOp.addi w u) w = w := by
  refine if_neg fun hc => ?_
  have hlt := IntOp.cmpi_slt.1 hc
  have z : (0#32 : BitVec 32).toInt = 0 := by decide
  rw [z] at hlt
  have := h.1
  omega

/-- A row's word clamped into the table is the row it names. -/
theorem clamp_row (w : BitVec 32) (h : IsRow w) : clampIx 100000 (by decide) w = rowOf w := by
  apply Fin.ext
  rw [clampIx_val, h.toInt_toNat]
  rfl

section
variable {F : FTy → Type} [FloatOps F]

/-- The start positions handed to a gather over `i1` (or `i2`): the indices themselves, as a column. -/
theorem starts_eq (x : (⟨S16384, .i32⟩ : BufTy).Contents (Elt F)) (h : ∀ r, IsRow (x r)) (i : S16384x1.Idx) :
    val_main_v5 (F := F) x i = x (ix1 (i 0)) := by
  rw [val_main_v5_apply, val_main_v4_apply, val_main_v1_apply, val_main_v3_apply, val_main_v0_apply, val_main_c_apply]
  have e : idx_main_v5 i = ix1 (i 0) := funext fun a => by match a with | ⟨0, _⟩ => rfl
  rw [e]
  exact wrap_row _ _ (h _)

/-- The four wrapped index columns are one term. -/
theorem starts12 (x : (⟨S16384, .i32⟩ : BufTy).Contents (Elt F)) : val_main_v12 (F := F) x = val_main_v5 (F := F) x := rfl
theorem starts19 (x : (⟨S16384, .i32⟩ : BufTy).Contents (Elt F)) : val_main_v19 (F := F) x = val_main_v5 (F := F) x := rfl
theorem starts26 (x : (⟨S16384, .i32⟩ : BufTy).Contents (Elt F)) : val_main_v26 (F := F) x = val_main_v5 (F := F) x := rfl

/-- A gather of rows of a 128-wide table reads, at `(r, k)`, the table at (the clamped start of `r`, `k`). -/
theorem gather128 {α : Type} (W : S100000x128.Idx → α) (idx : IVec S16384x1 32) (i : S16384x128.Idx) :
    Host.gather gather_S100000x128_S16384x1_S16384x128_1_0_n_n_0_1_1128 W idx i
      = W (ix2 (clampIx 100000 (by decide) (idx (ix2 (i 0) 0))) (i 1)) := by
  have e := gather_UL_apply (U := 100000) (L := 128) (N := 16384) (by decide)
    gather_S100000x128_S16384x1_S16384x128_1_0_n_n_0_1_1128_wf W idx (i 0) (i 1)
  exact (congrArg (Host.gather gather_S100000x128_S16384x1_S16384x128_1_0_n_n_0_1_1128 W idx) (eq_ix2 i)).trans e

/-- Likewise of a one-wide table. -/
theorem gather1 {α : Type} (b : S100000x1.Idx → α) (idx : IVec S16384x1 32) (i : S16384x1.Idx) :
    Host.gather gather_S100000x1_S16384x1_S16384x1_1_0_n_n_0_1_11 b idx i
      = b (ix2 (clampIx 100000 (by decide) (idx (ix2 (i 0) 0))) (i 1)) := by
  have e := gather_UL_apply (U := 100000) (L := 1) (N := 16384) (by decide)
    gather_S100000x1_S16384x1_S16384x1_1_0_n_n_0_1_11_wf b idx (i 0) (i 1)
  exact (congrArg (Host.gather gather_S100000x1_S16384x1_S16384x1_1_0_n_n_0_1_11 b idx) (eq_ix2 i)).trans e

end

/-- THE REFERENCE IS THE SCORE: row `r` of its result is `score r`. -/
theorem ref_eq (i1 i2 : IVec S16384 32) (W1 W2 : FVec Ideal S100000x128 .f32) (b1 b2 : FVec Ideal S100000x1 .f32)
    (h1 : ∀ r, IsRow (i1 r)) (h2 : ∀ r, IsRow (i2 r)) (j : S16384x1.Idx) :
    val_main_v32 (F := Ideal) i1 i2 W1 W2 b1 b2 j = score i1 i2 W1 W2 b1 b2 (j 0) := by
  rw [val_main_v32_apply, val_main_v31_apply, val_main_v30_apply, val_main_v29_apply, val_main_cst_apply]
  unfold score
  have e0 : (j 1).val = 0 := by have h : (j 1).val < 1 := (j 1).isLt; omega
  show ((Ideal.ofBits .f32 0x00000000#32 + ∑ k : Fin 128, _) + _) + _ = _
  rw [Ideal.ofBits_zero_f32, zero_add]
  congr 1
  · congr 1
    · refine Finset.sum_congr rfl fun k _ => ?_
      rw [val_main_v28_apply]
      show val_main_v6 (F := Ideal) i1 W1 _ * val_main_v13 (F := Ideal) i2 W2 _ = _
      unfold val_main_v6 val_main_v13
      rw [gather128, gather128, starts12, starts_eq i1 h1, starts_eq i2 h2, clamp_row _ (h1 _), clamp_row _ (h2 _)]
      rfl
    · unfold val_main_v20
      rw [gather1, starts19, starts_eq i1 h1, clamp_row _ (h1 _)]
      exact congrArg (fun z : Fin 1 => b1 (ix2 (rowOf (i1 (ix1 (j 0)))) z)) (Fin.ext e0)
  · unfold val_main_v27
    rw [gather1, starts26, starts_eq i2 h2, clamp_row _ (h2 _)]
    exact congrArg (fun z : Fin 1 => b2 (ix2 (rowOf (i2 (ix1 (j 0)))) z)) (Fin.ext e0)

end Cert.Embed.Ref

end
-- ==== Proof.lean ====
/- The proof of `Cert.Claim` (proofs.«405020_j8297876816110_3_alg».proof.Defs): two embedding-table row gathers, a
   per-row inner product over the 128 lanes and two gathered biases, as a pallas_call whose block index maps read the
   prefetched index vectors, against jnp's `W1[i1]`, `W2[i2]`, `b1[i1]`, `b2[i2]`, `jnp.sum` and two additions.

   The precondition says the floats are finite and every index names a row of its table (0 ≤ i < 100000); only the
   second part is used. It gives the pipeline's side condition on the tables' contents (each table-indexed block lies
   inside its array), under which the generated frames of both kernel programs hold (Proof/KernelOk.lean,
   Proof/IdealOk.lean, over Proof/IndexRange.lean and Proof/Rows.lean). On the extended reals row `r` of both results is
   `score r = (∑ₖ W1[i1[r], k] · W2[i2[r], k] + b1[i1[r]]) + b2[i2[r]]` (Proof/Spec.lean): for the idealized kernel by
   reading the body's stored value at each grid point off the generated run, the blocks off the tables' words, and
   the 16384 one-element write-backs as a tiling of the result (Proof/IdealBody.lean, Proof/IdealBlocks.lean,
   Proof/IdealValue.lean, Proof/IdealRun.lean); for the reference by reading its generated run one operation at a time,
   the wrap of a negative index and the gather's clamp both leaving a row's word alone (Proof/RefSide.lean). The same
   operations in the same order on both sides: no law of the extended reals beyond `0 + x = x` is used. The ideal pass
   rewrote nothing, so `preserves` is `True`. -/
import proofs.«405020_j8297876816110_3_alg».proof.Defs
import proofs.«405020_j8297876816110_3_alg».proof.Proof.Gen.Kernel
import proofs.«405020_j8297876816110_3_alg».proof.Proof.Gen.Kernel.Skeleton
import proofs.«405020_j8297876816110_3_alg».proof.Proof.Gen.Kernel.Launch
import proofs.«405020_j8297876816110_3_alg».proof.Proof.Gen.Kernel.Points
import proofs.«405020_j8297876816110_3_alg».proof.Proof.Gen.Kernel.Frame
import proofs.«405020_j8297876816110_3_alg».proof.Proof.Gen.KernelIdeal
import proofs.«405020_j8297876816110_3_alg».proof.Proof.Gen.KernelIdeal.Skeleton
import proofs.«405020_j8297876816110_3_alg».proof.Proof.Gen.KernelIdeal.Launch
import proofs.«405020_j8297876816110_3_alg».proof.Proof.Gen.KernelIdeal.Points
import proofs.«405020_j8297876816110_3_alg».proof.Proof.Gen.KernelIdeal.Frame
import proofs.«405020_j8297876816110_3_alg».proof.Proof.Gen.ReferenceIdeal
import proofs.«405020_j8297876816110_3_alg».proof.Proof.Gen.ReferenceIdeal.Run
import proofs.«405020_j8297876816110_3_alg».proof.Proof.Gen.ReferenceIdeal.Read
import proofs.«405020_j8297876816110_3_alg».proof.Proof.Gen.Pre_finite_inputs
import proofs.«405020_j8297876816110_3_alg».proof.Proof.KernelOk
import proofs.«405020_j8297876816110_3_alg».proof.Proof.IdealOk
import proofs.«405020_j8297876816110_3_alg».proof.Proof.IdealRun
import proofs.«405020_j8297876816110_3_alg».proof.Proof.RefSide
import Idealize.ShloMosaic.Adequacy
import Idealize.ShloMosaic.Init

noncomputable section

namespace Cert.Proof

open Idealize.ShloMosaic Idealize.SL.Sem

/-- The kernel as printed runs and keeps its arguments: its tables are in range. -/
theorem frame_kernel : Cert.frame_Kernel := fun m ρ h =>
  Cert.Kernel.Gen.frame m ρ (Cert.Kernel.Hand.ok_of_rows m (rows_Kernel m h))

/-- So does the idealized kernel. -/
theorem frame_ideal : Cert.frame_KernelIdeal := fun m ρ h =>
  Cert.KernelIdeal.Gen.frame m ρ (Cert.KernelIdeal.Hand.ok_of_rows m (rows_KernelIdeal m h))

/-- The reference is a host program: its run, the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Both idealized programs end with the scores: the kernel's run names them, the reference's run term is them row by
    row once its arguments are the kernel's. -/
theorem algebraic : Cert.algebraic_KernelIdeal_ReferenceIdeal := by
  intro m ρ m' ρ' hpre hagree
  have hrows := rows_KernelIdeal m hpre
  refine ⟨fun c => Cert.KernelIdeal.Hand.result m c, Cert.KernelIdeal.Hand.run m ρ hrows, ?_⟩
  refine (θ_run Cert.ReferenceIdeal.defs _ _).mono (fun _ h c => ⟨?_, (h c).2⟩)
    (Cert.ReferenceIdeal.Value.run (F := Ideal) m' ρ')
  rw [(h c).1, (hagree c).1, (hagree c).2.1, (hagree c).2.2.1, (hagree c).2.2.2.1, (hagree c).2.2.2.2.1,
    (hagree c).2.2.2.2.2, Cert.ReferenceIdeal.Read.val_main_v32_eq]
  funext j
  exact Cert.Embed.Ref.ref_eq _ _ _ _ _ _ (hrows c).1 (hrows c).2 j

theorem claim : Cert.Claim :=
  ⟨Cert.Kernel.Gen.facts, Cert.KernelIdeal.Gen.facts, Cert.ReferenceIdeal.Gen.facts, Cert.Pre_finite_inputs.Gen.facts,
    frame_kernel, frame_ideal, frame_ref, trivial, algebraic⟩

end Cert.Proof

end
